-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S1x64 : Shape := ⟨2, ![1, 64]⟩
abbrev S5000 : Shape := ⟨1, ![5000]⟩

abbrev nBuf : Space → Nat
  | .hbm => 33
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S64x64, .f32⟩
  | .hbm, ⟨30, _⟩ => ⟨S64x64, .f32⟩
  | .hbm, ⟨31, _⟩ => ⟨S100000x64, .f32⟩
  | .hbm, ⟨32, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S100000x1, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_call0_cst_0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_cst_1 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageSpec.lean ====
/-
  The mathematics of the certificate, free of both programs: one node's row of a mean-aggregating graph layer and the
  row's log-softmax, as functions on the extended reals.

  For a node with neighbour-feature sum `a` (a row of 64), in-degree `d`, own features `x` (a row of 64), two 64 × 64
  weight matrices `wl`, `wr` (already transposed: entry `(k, j)` multiplies input feature `k` into output feature `j`)
  and a bias `b`, the layer's output row is

      out j = Σ_k (a k / max d 1) · wl k j  +  Σ_k x k · wr k j  +  b j,

  and the second result is its log-softmax, `z j = (out j − M) − log Σ_k exp (out k − M)` with `M = max_k out k`
  taken from `−∞`. The three summands of `out` may be added in either order: addition of extended reals is commutative
  and associative (no finiteness is needed), which is the only algebraic law the two programs differ by.
-/
import Idealize.ShloMosaic.PureOps.Ideal
import Idealize.ShloMosaic.PureOps.Ideal.Laws
import Idealize.ShloMosaic.Lib.ValueIdx

noncomputable section

open scoped BigOperators

namespace Cert.SageSpec

open Idealize.ShloMosaic

/-- The f32 word of `1.0`, the floor of the in-degree, kept as its word (both programs print this word). -/
abbrev oneW : EReal := Ideal.ofBits .f32 0x3F800000#32
/-- The f32 word of `−∞`, from which a row's maximum is taken. -/
abbrev negInfW : EReal := Ideal.ofBits .f32 0xFF800000#32

/-- An entry of the neighbour mean: the summed neighbour feature over the in-degree, the degree floored at one so
    that an isolated node's mean is its (zero) sum. -/
def meanEntry (a d : EReal) : EReal := Ideal.div a (max d oneW)

/-- One output row of the layer, the bias added LAST: `(mean · wl + x · wr) + b`. -/
def layerRow (x a : Fin 64 → EReal) (d : EReal) (wl wr : Fin 64 → Fin 64 → EReal) (b : Fin 64 → EReal) (j : Fin 64) : EReal :=
  (∑ k : Fin 64, meanEntry (a k) d * wl k j + ∑ k : Fin 64, x k * wr k j) + b j

/-- The same row with the bias added BETWEEN the two products: `(mean · wl + b) + x · wr`. -/
def layerRowBiasFirst (x a : Fin 64 → EReal) (d : EReal) (wl wr : Fin 64 → Fin 64 → EReal) (b : Fin 64 → EReal) (j : Fin 64) : EReal :=
  (∑ k : Fin 64, meanEntry (a k) d * wl k j + b j) + ∑ k : Fin 64, x k * wr k j

/-- The two orders of the three summands agree: addition of extended reals is commutative and associative. -/
theorem layerRowBiasFirst_eq (x a : Fin 64 → EReal) (d : EReal) (wl wr : Fin 64 → Fin 64 → EReal) (b : Fin 64 → EReal) (j : Fin 64) :
    layerRowBiasFirst x a d wl wr b j = layerRow x a d wl wr b j := by
  unfold layerRowBiasFirst layerRow
  exact add_right_comm _ _ _

/-- A row's maximum, folded from `−∞`. -/
def rowMax (o : Fin 64 → EReal) : EReal := (Finset.univ : Finset (Fin 64)).fold max negInfW o

/-- The row's log-softmax: the row shifted by its maximum, minus the logarithm of the shifted row's exponentials' sum. -/
def logSoftmaxRow (o : Fin 64 → EReal) (j : Fin 64) : EReal :=
  (o j - rowMax o) - Ideal.log (∑ k : Fin 64, Ideal.exp (o k - rowMax o))

/-- `−∞` is the maximum's identity: taking the maximum with it once more changes nothing. -/
theorem max_negInfW (x : EReal) : max negInfW x = x := by
  simp [negInfW, Ideal.ofBits, Ideal.ieee]

/-- A layer row depends on its data only through their entries. -/
theorem layerRow_congr {x x' a a' : Fin 64 → EReal} {d d' : EReal} {wl wl' wr wr' : Fin 64 → Fin 64 → EReal} {b b' : Fin 64 → EReal}
    (hx : ∀ k, x k = x' k) (ha : ∀ k, a k = a' k) (hd : d = d') (hwl : ∀ k j, wl k j = wl' k j) (hwr : ∀ k j, wr k j = wr' k j)
    (hb : ∀ j, b j = b' j) (j : Fin 64) : layerRow x a d wl wr b j = layerRow x' a' d' wl' wr' b' j := by
  obtain rfl : x = x' := funext hx
  obtain rfl : a = a' := funext ha
  obtain rfl : wl = wl' := funext fun k => funext (hwl k)
  obtain rfl : wr = wr' := funext fun k => funext (hwr k)
  obtain rfl : b = b' := funext hb
  rw [hd]

/-- A row's log-softmax depends on the row only through its entries. -/
theorem logSoftmaxRow_congr {o o' : Fin 64 → EReal} (h : ∀ k, o k = o' k) (j : Fin 64) : logSoftmaxRow o j = logSoftmaxRow o' j := by
  obtain rfl : o = o' := funext h
  rfl

/-! ## The two results as whole arrays -/

open Idealize.ShloMosaic.ValueIdx

/-- Node features and neighbour sums: 100000 nodes × 64 features. -/
abbrev SNodes : Shape := ⟨2, ![100000, 64]⟩
/-- The in-degrees: one per node. -/
abbrev SDeg : Shape := ⟨1, ![100000]⟩
/-- A 64 × 64 weight matrix. -/
abbrev SWeight : Shape := ⟨2, ![64, 64]⟩
/-- The bias: one per output feature. -/
abbrev SBias : Shape := ⟨1, ![64]⟩

/-- THE LAYER'S OUTPUT as one function of the node features `x`, the neighbour sums `a`, the in-degrees `deg`, the two
    (transposed) weight matrices and the bias: entry `(r, j)` is node `r`'s layer row at `j`. -/
def layerArr (x a : SNodes.Idx → EReal) (deg : SDeg.Idx → EReal) (wl wr : SWeight.Idx → EReal) (b : SBias.Idx → EReal) :
    SNodes.Idx → EReal := fun i =>
  layerRow (fun k => x (ix2 (i 0) k)) (fun k => a (ix2 (i 0) k)) (deg (ix1 (i 0)))
    (fun k j => wl (ix2 k j)) (fun k j => wr (ix2 k j)) (fun j => b (ix1 j)) (i 1)

/-- THE SECOND RESULT as a function of the first: entry `(r, j)` is the log-softmax of row `r` at `j`. -/
def logSoftmaxArr (o : SNodes.Idx → EReal) : SNodes.Idx → EReal := fun i =>
  logSoftmaxRow (fun k => o (ix2 (i 0) k)) (i 1)

end Cert.SageSpec

end
-- ==== Proof.KernelBlock.lean ====
/-
  One block of the kernel read at an index. The kernel works on a block of 5000 nodes at a time: the block's rows of the
  node features `x`, of the neighbour sums `a` and of the in-degree column `dg`, and the two whole weight matrices and
  the bias. Its first store holds, at `(p, q)`, the layer row of node `p` at feature `q` (`SageSpec.layerRow`: both
  matrix products are plain sums over the 64 input features, the format changes before them are the identity on the
  extended reals, the mean divides by the degree column's entry floored at one, and the bias is added last); its second
  store holds the log-softmax of that row (`SageSpec.logSoftmaxRow`: the row maximum and the row sum are the block's
  reductions over its second axis, each broadcast back along the row).
-/
import proofs.«174587_j54906861912525_1_alg».proof.Proof.Gen.KernelIdeal.Skeleton
import proofs.«174587_j54906861912525_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen
open Idealize.ShloMosaic Idealize.ShloMosaic.ValueIdx Cert.SageSpec

/-! ## Two column layouts read at an index -/

/-- A column `[a, 1]` broadcast across `b` columns reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-! ## The matrix product of a block with a weight matrix, at an index -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product with a 64 × 64 matrix, accumulated into zero, is at `(p, q)` the sum over the 64 input features. -/
theorem matmul_at (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The first store: the layer's output row -/

/-- The first payload as the tree of its vector operations. -/
theorem layer_tree (x a : Vec Ideal S5000x64 .f32) (dg : Vec Ideal S5000x1 .f32) (wl wr : Vec Ideal S64x64 .f32) (b : Vec Ideal S64 .f32) :
    k0_pay1 x a dg wl wr b
      = addf (addf
          (matmul dot_S5000x64_S64x64_S5000x64_1_0_0_1_n_n none
            (truncf .bf16 (divf (shapeCast S5000x64 a shapeCasts_S5000x64_S5000x64)
              (broadcastTo S5000x64 (maximumf (shapeCast S5000x1 dg shapeCasts_S5000x1_S5000x1) (broadcast S5000x1 (Scalar.ofBits .f32 0x3F800000#32))) broadcasts_S5000x1_S5000x64)) bitsLt_bf16_f32)
            (truncf .bf16 (shapeCast S64x64 wl shapeCasts_S64x64_S64x64) bitsLt_bf16_f32) (constant S5000x64 .f32 0x00000000#32))
          (matmul dot_S5000x64_S64x64_S5000x64_1_0_0_1_n_n none (truncf .bf16 x bitsLt_bf16_f32)
            (truncf .bf16 (shapeCast S64x64 wr shapeCasts_S64x64_S64x64) bitsLt_bf16_f32) (constant S5000x64 .f32 0x00000000#32)))
          (broadcastTo S5000x64 (shapeCast S1x64 b shapeCasts_S64_S1x64) broadcasts_S1x64_S5000x64) := rfl

/-- THE FIRST STORE AT `(p, q)`: node `p`'s layer row at feature `q`, from the block's rows at `p`, the degree column's
    entry at `p`, the two weight matrices and the bias. -/
theorem layer_at (x a : Vec Ideal S5000x64 .f32) (dg : Vec Ideal S5000x1 .f32) (wl wr : Vec Ideal S64x64 .f32) (b : Vec Ideal S64 .f32)
    (p : Fin 5000) (q : Fin 64) :
    k0_pay1 x a dg wl wr b (ix2 p q)
      = layerRow (fun k => x (ix2 p k)) (fun k => a (ix2 p k)) (dg (ix2 p (0 : Fin 1)))
          (fun k j => wl (ix2 k j)) (fun k j => wr (ix2 k j)) (fun j => b (ix1 j)) q := by
  rw [layer_tree]
  unfold layerRow meanEntry
  rw [addf_apply, addf_apply, matmul_at, matmul_at, broadcastTo_1b_ab_apply, shapeCast_a_1a_apply]
  refine congrArg₂ (· + ·) (congrArg₂ (· + ·) (Finset.sum_congr rfl fun k _ => ?_) (Finset.sum_congr rfl fun k _ => ?_)) rfl
  · rw [truncf_apply, truncf_apply, divf_apply, shapeCast_self, shapeCast_self, broadcastTo_a1_ab_apply, maximumf_apply,
      shapeCast_self, broadcast_apply]
    rfl
  · rw [truncf_apply, truncf_apply, shapeCast_self]

/-! ## The second store: the row's log-softmax -/

/-- The second payload's operations as a function of the block `o` they are applied to (the first payload). -/
def lsmBlock (o : FVec Ideal S5000x64 .f32) : FVec Ideal S5000x64 .f32 :=
  subf (subf o (broadcastTo S5000x64 (shapeCast S5000x1 (multiReduction .maximumf [1] S5000 o 0xFF800000#32 reduces_S5000x64_S5000 (.inl rfl) rfl) shapeCasts_S5000_S5000x1) broadcasts_S5000x1_S5000x64))
    (broadcastTo S5000x64 (log (shapeCast S5000x1 (multiReduction .add [1] S5000 (exp (subf o (broadcastTo S5000x64 (shapeCast S5000x1 (multiReduction .maximumf [1] S5000 o 0xFF800000#32 reduces_S5000x64_S5000 (.inl rfl) rfl) shapeCasts_S5000_S5000x1) broadcasts_S5000x1_S5000x64))) 0x00000000#32 reduces_S5000x64_S5000 (.inl rfl) rfl) shapeCasts_S5000_S5000x1)) broadcasts_S5000x1_S5000x64)

/-- The second payload is those operations of the first. -/
theorem pay2_eq (x a : Vec Ideal S5000x64 .f32) (dg : Vec Ideal S5000x1 .f32) (wl wr : Vec Ideal S64x64 .f32) (b : Vec Ideal S64 .f32) :
    k0_pay2 x a dg wl wr b = lsmBlock (k0_pay1 x a dg wl wr b) := rfl

/-- The block's maximum over its second axis, at row `p`, is the row's maximum from `−∞`. -/
theorem rowMax_block (o : FVec Ideal S5000x64 .f32) (p : Fin 5000) :
    (multiReduction .maximumf [1] S5000 o 0xFF800000#32 reduces_S5000x64_S5000 (.inl rfl) rfl) (ix1 p) = rowMax (fun k => o (ix2 p k)) := by
  refine (Ideal.multiReduction_maximumf_single o 0xFF800000#32 reduces_S5000x64_S5000 (.inl rfl) rfl (ix1 p)).trans ?_
  have e : (o ∘ reduces_S5000x64_S5000.lift (ix1 p)) = fun k : Fin 64 => o (ix2 p k) :=
    funext fun k => congrArg o (funext fun a => Fin.ext (by match a with | ⟨0, _⟩ => rfl | ⟨1, _⟩ => rfl))
  rw [e]
  rfl

/-- The block's sum over its second axis, at row `p`, is the sum of the row. -/
theorem rowSum_block (e : FVec Ideal S5000x64 .f32) (p : Fin 5000) :
    multiReduction .add [1] S5000 e 0x00000000#32 reduces_S5000x64_S5000 (.inl rfl) rfl (ix1 p) = ∑ k : Fin 64, e (ix2 p k) := by
  refine (Ideal.multiReduction_add_single e 0x00000000#32 reduces_S5000x64_S5000 (.inl rfl) rfl (ix1 p)).trans ?_
  exact Finset.sum_congr rfl fun k _ => congrArg e (funext fun a => Fin.ext (by match a with | ⟨0, _⟩ => rfl | ⟨1, _⟩ => rfl))

/-- The row maximum broadcast back along the row reads the row's maximum at every column. -/
theorem bmax_at (o : FVec Ideal S5000x64 .f32) (p : Fin 5000) (c : Fin 64) :
    (broadcastTo S5000x64 (shapeCast S5000x1 (multiReduction .maximumf [1] S5000 o 0xFF800000#32 reduces_S5000x64_S5000 (.inl rfl) rfl) shapeCasts_S5000_S5000x1) broadcasts_S5000x1_S5000x64) (ix2 p c) = rowMax (fun k => o (ix2 p k)) :=
  (broadcastTo_a1_ab_apply _ _ p c).trans ((shapeCast_a_a1_apply _ _ p 0).trans (rowMax_block o p))

/-- THE SECOND STORE AT `(p, q)`: the log-softmax of row `p` of the block it is applied to, at `q`. -/
theorem lsm_at (o : FVec Ideal S5000x64 .f32) (p : Fin 5000) (q : Fin 64) :
    lsmBlock o (ix2 p q) = logSoftmaxRow (fun k => o (ix2 p k)) q := by
  unfold lsmBlock logSoftmaxRow
  rw [subf_apply, subf_apply, bmax_at, broadcastTo_a1_ab_apply]
  show (o (ix2 p q) - rowMax fun k => o (ix2 p k))
      - Ideal.log (shapeCast S5000x1 (multiReduction .add [1] S5000 (exp (subf o (broadcastTo S5000x64 (shapeCast S5000x1 (multiReduction .maximumf [1] S5000 o 0xFF800000#32 reduces_S5000x64_S5000 (.inl rfl) rfl) shapeCasts_S5000_S5000x1) broadcasts_S5000x1_S5000x64))) 0x00000000#32 reduces_S5000x64_S5000 (.inl rfl) rfl) shapeCasts_S5000_S5000x1 (ix2 p (0 : Fin 1))) = _
  rw [shapeCast_a_a1_apply, rowSum_block]
  refine congrArg (fun s => (o (ix2 p q) - rowMax fun k => o (ix2 p k)) - Ideal.log s) (Finset.sum_congr rfl fun k _ => ?_)
  show Ideal.exp (o (ix2 p k) - (broadcastTo S5000x64 (shapeCast S5000x1 (multiReduction .maximumf [1] S5000 o 0xFF800000#32 reduces_S5000x64_S5000 (.inl rfl) rfl) shapeCasts_S5000_S5000x1) broadcasts_S5000x1_S5000x64) (ix2 p k)) = _
  rw [bmax_at]

end Cert.KernelIdeal.Block

end
-- ==== Proof.HostStages.lean ====
/-
  The arrays the kernel's region finds, as the reference's stages. Before the region, the kernel's host code computes,
  from the node features and the edge list, the neighbour sums (gather the source nodes' features, scatter-add them onto
  the destination nodes), the in-degrees (scatter-add ones onto the destination nodes, then as a column) and the two
  weight matrices' transposes. The reference computes the same four values by the same operations, so each array the
  region finds IS the reference's stage of the launch contents; the degree column's entry at `(r, 0)` is the degree
  vector's at `r`. Stated for every float instance: nothing here opens an operation.
-/
import proofs.«174587_j54906861912525_1_alg».proof.Proof.Gen.KernelIdeal.Frame
import proofs.«174587_j54906861912525_1_alg».proof.Proof.RefReadPatched
import Idealize.ShloMosaic.Lib.StableHlo.Run
import Idealize.ShloMosaic.Lib.ValueIdx
import Idealize.ShloMosaic.Lib.Pipeline.Value

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The neighbour sums the region finds are the reference's neighbour sums of the launch contents. -/
theorem V_agg (c : Dev nD) :
    V m c main_v13 = Cert.ReferenceIdeal.ReadP.val_main_v13 (F := F) (m ((c : Thread nD τ).loc main_arg0)) (m ((c : Thread nD τ).loc main_arg1)) := by
  dsimp only [V, hostOps0]
  after_results_simp
  rfl

/-- The degree column the region finds is the reference's in-degree vector, as a column. -/
theorem V_degcol (c : Dev nD) :
    V m c main_v18 = broadcastInDim S100000x1 ![0] bcast_S100000_S100000x1_0
      (Cert.ReferenceIdeal.ReadP.val_main_v17 (F := F) (m ((c : Thread nD τ).loc main_arg1))) := by
  dsimp only [V, hostOps0]
  after_results_simp
  rfl

/-- The degree column's entry at `(r, 0)` is the in-degree of node `r`. -/
theorem V_degcol_at (c : Dev nD) (r : Fin 100000) :
    V m c main_v18 (ix2 r (0 : Fin 1)) = Cert.ReferenceIdeal.ReadP.val_main_v17 (F := F) (m ((c : Thread nD τ).loc main_arg1)) (ix1 r) := by
  rw [V_degcol]
  refine broadcastInDim_apply _ _ _ (ix2 r (0 : Fin 1)) (ix1 r) fun a => ?_
  match a with
  | ⟨0, _⟩ => show r.val = if (100000 : ℕ) = 1 then 0 else r.val; rw [if_neg (by decide)]

/-- The first weight matrix the region finds is the reference's transpose of it. -/
theorem V_wl (c : Dev nD) :
    V m c main_v19 = Cert.ReferenceIdeal.ReadP.val_main_v23 (F := F) (m ((c : Thread nD τ).loc main_arg2)) := by
  dsimp only [V, hostOps0]
  after_results_simp
  rfl

/-- The second weight matrix the region finds is the reference's transpose of it. -/
theorem V_wr (c : Dev nD) :
    V m c main_v20 = Cert.ReferenceIdeal.ReadP.val_main_v28 (F := F) (m ((c : Thread nD τ).loc main_arg4)) := by
  dsimp only [V, hostOps0]
  after_results_simp
  rfl

end Cert.KernelIdeal.HostStages

end
-- ==== Proof.KernelArray.lean ====
/-
  From the kernel's blocks to its two result arrays. The grid has 20 points; point `t` works on nodes
  `5000 t … 5000 t + 4999`: it fetches those rows of the node features, of the neighbour sums and of the degree column,
  and the whole weight matrices and bias, and writes back those rows of the two results. So what point `t` writes at
  block row `p` is the layer row (and its log-softmax) of node `5000 t + p`, the 20 blocks cover all 100000 nodes (node
  `r` is in block `r / 5000`), and after the run the first result array is `layerArr` of the launch contents and the
  second its row-wise log-softmax. The neighbour sums, the degrees and the transposed weights are the host stages of the
  launch contents (HostStages.lean).
-/
import proofs.«174587_j54906861912525_1_alg».proof.Proof.Gen.KernelIdeal.Value
import proofs.«174587_j54906861912525_1_alg».proof.Proof.KernelBlock
import proofs.«174587_j54906861912525_1_alg».proof.Proof.HostStages
import Idealize.ShloMosaic.Lib.Pipeline.Value
import Idealize.ShloMosaic.Lib.ValueIdx

noncomputable section

namespace Cert.KernelIdeal.Arr

open Cert.KernelIdeal Cert.KernelIdeal.Gen Idealize.ShloMosaic Idealize.ShloMosaic.TcCoe Idealize.SL.Sem
open Idealize.ShloMosaic.ValueIdx Cert.SageSpec
open Idealize.ShloMosaic.Pipeline (Dat)

variable (m : (ℓ : Loc nD τ sig) → Buf (Elt Ideal) ℓ) (ρ : Dev nD → PrngReg)

-- the host's neighbour sums, in-degrees and transposed weights enter only as arrays: nothing below depends on how they are computed
attribute [local irreducible] Cert.ReferenceIdeal.ReadP.val_main_v13 Cert.ReferenceIdeal.ReadP.val_main_v17 Cert.ReferenceIdeal.ReadP.val_main_v23 Cert.ReferenceIdeal.ReadP.val_main_v28
-- likewise the arrays the region finds (`V`): what each of them holds is given by the `V_…` lemmas
attribute [local irreducible] StableHlo.after

/-- The layer's output of the launch contents: `layerArr` of the node features, the host's neighbour sums and in-degrees
    of them and of the edge list, the transposed weights and the bias. -/
def outOf (c : Dev nD) : SNodes.Idx → EReal :=
  layerArr (m ((c : Thread nD τ).loc main_arg0))
    (Cert.ReferenceIdeal.ReadP.val_main_v13 (F := Ideal) (m ((c : Thread nD τ).loc main_arg0)) (m ((c : Thread nD τ).loc main_arg1)))
    (Cert.ReferenceIdeal.ReadP.val_main_v17 (F := Ideal) (m ((c : Thread nD τ).loc main_arg1)))
    (Cert.ReferenceIdeal.ReadP.val_main_v23 (F := Ideal) (m ((c : Thread nD τ).loc main_arg2)))
    (Cert.ReferenceIdeal.ReadP.val_main_v28 (F := Ideal) (m ((c : Thread nD τ).loc main_arg4)))
    (m ((c : Thread nD τ).loc main_arg3))

/-- The second result of the launch contents: the row-wise log-softmax of the first. -/
def zOf (c : Dev nD) : SNodes.Idx → EReal := logSoftmaxArr (outOf m c)

/-! ## The index maps, decided over the 20 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 20 := by
  have h := t.isLt
  have hN : cfg0.N = 20 := N_0
  omega

/-! ## The input windows' blocks at a point, read at an index -/

/-- Block row `p` of the node features at point `t` is node `5000 t + p`'s row. -/
theorem x_row (c : Dev nD) (t : Fin cfg0.N) (p : Fin 5000) (k : Fin 64) (r : Fin 100000) (hr : r.val = t.val * 5000 + p.val) :
    (iblk m c 0 t : Vec Ideal S5000x64 .f32) (ix2 p k) = (m ((c : Thread nD τ).loc main_arg0)) (ix2 r k) := by
  obtain ⟨e0, e1, -⟩ := idx_facts t
  rw [← V_main_arg0 m c]
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Window 1's block read at an index is its array at the index's place in the array, for any array (the view's change of element type is the identity here). -/
theorem blk_read1 (t : Fin cfg0.N) (X : ((cfg0.win 1).blk t).view.ty.Contents (Elt Ideal)) (y : S5000x64.Idx) :
    ((cfg0.win 1).blk t).view.read (Elt Ideal) X y = X (((cfg0.win 1).blk t).view.emb y) := rfl

/-- Window 2's block read at an index, likewise. -/
theorem blk_read2 (t : Fin cfg0.N) (X : ((cfg0.win 2).blk t).view.ty.Contents (Elt Ideal)) (y : S5000x1.Idx) :
    ((cfg0.win 2).blk t).view.read (Elt Ideal) X y = X (((cfg0.win 2).blk t).view.emb y) := rfl

/-- Block row `p` of the neighbour sums at point `t` is node `5000 t + p`'s row of the host's neighbour sums. -/
theorem agg_row (c : Dev nD) (t : Fin cfg0.N) (p : Fin 5000) (k : Fin 64) (r : Fin 100000) (hr : r.val = t.val * 5000 + p.val) :
    (iblk m c 1 t : Vec Ideal S5000x64 .f32) (ix2 p k) = Cert.ReferenceIdeal.ReadP.val_main_v13 (F := Ideal) (m ((c : Thread nD τ).loc main_arg0)) (m ((c : Thread nD τ).loc main_arg1)) (ix2 r k) := by
  obtain ⟨-, -, e0, e1, -⟩ := idx_facts t
  refine (blk_read1 t (V m c (Pipeline.arrRef spec0 1)) (ix2 p k)).trans ?_
  rw [← HostStages.V_agg m c]
  refine (congrArg (V m c main_v13) (funext fun a => Fin.ext ?_) :
    V m c main_v13 (((cfg0.win 1).blk t).view.emb (ix2 p k)) = V m c main_v13 (ix2 r k))
  match a with
  | ⟨0, _⟩ => show win0_1.index t (0 : Fin 2) * 5000 + 1 * p.val = r.val; omega
  | ⟨1, _⟩ => show win0_1.index t (1 : Fin 2) * 64 + 1 * k.val = k.val; omega

/-- The degree column's block entry at row `p` of point `t` is the in-degree of node `5000 t + p`. -/
theorem deg_row (c : Dev nD) (t : Fin cfg0.N) (p : Fin 5000) (r : Fin 100000) (hr : r.val = t.val * 5000 + p.val) :
    (iblk m c 2 t : Vec Ideal S5000x1 .f32) (ix2 p (0 : Fin 1)) = Cert.ReferenceIdeal.ReadP.val_main_v17 (F := Ideal) (m ((c : Thread nD τ).loc main_arg1)) (ix1 r) := by
  obtain ⟨-, -, -, -, e0, e1, -⟩ := idx_facts t
  refine (blk_read2 t (V m c (Pipeline.arrRef spec0 2)) (ix2 p (0 : Fin 1))).trans ?_
  rw [← HostStages.V_degcol_at m c r]
  refine (congrArg (V m c main_v18) (funext fun a => Fin.ext ?_) :
    V m c main_v18 (((cfg0.win 2).blk t).view.emb (ix2 p (0 : Fin 1))) = V m c main_v18 (ix2 r (0 : Fin 1)))
  match a with
  | ⟨0, _⟩ => show win0_2.index t (0 : Fin 2) * 5000 + 1 * p.val = r.val; omega
  | ⟨1, _⟩ => show win0_2.index t (1 : Fin 2) * 1 + 1 * 0 = 0; omega

/-- The first weight matrix's block at every point is the whole (transposed) matrix. -/
theorem wl_at (c : Dev nD) (t : Fin cfg0.N) (k j : Fin 64) :
    (iblk m c 3 t : Vec Ideal S64x64 .f32) (ix2 k j) = Cert.ReferenceIdeal.ReadP.val_main_v23 (F := Ideal) (m ((c : Thread nD τ).loc main_arg2)) (ix2 k j) := by
  obtain ⟨-, -, -, -, -, -, e0, e1, -⟩ := idx_facts t
  rw [← HostStages.V_wl m c]
  show V m c main_v19 (((cfg0.win 3).blk t).view.emb (ix2 k j)) = V m c main_v19 (ix2 k j)
  refine congrArg (V m c main_v19) (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- The bias's block at every point is the whole bias. -/
theorem b_at (c : Dev nD) (t : Fin cfg0.N) (j : Fin 64) :
    (iblk m c 4 t : Vec Ideal S64 .f32) (ix1 j) = (m ((c : Thread nD τ).loc main_arg3)) (ix1 j) := by
  obtain ⟨-, -, -, -, -, -, -, -, e0, -⟩ := idx_facts t
  rw [← V_main_arg3 m c]
  show V m c main_arg3 (((cfg0.win 4).blk t).view.emb (ix1 j)) = V m c main_arg3 (ix1 j)
  refine congrArg (V m c main_arg3) (funext fun a => Fin.ext ?_)
  match a with
  | ⟨0, _⟩ => show win0_4.index t (0 : Fin 1) * 64 + 1 * j.val = j.val; omega

/-- The second weight matrix's block at every point is the whole (transposed) matrix. -/
theorem wr_at (c : Dev nD) (t : Fin cfg0.N) (k j : Fin 64) :
    (iblk m c 5 t : Vec Ideal S64x64 .f32) (ix2 k j) = Cert.ReferenceIdeal.ReadP.val_main_v28 (F := Ideal) (m ((c : Thread nD τ).loc main_arg4)) (ix2 k j) := by
  obtain ⟨-, -, -, -, -, -, -, -, -, e0, e1, -⟩ := idx_facts t
  rw [← HostStages.V_wr m c]
  show V m c main_v20 (((cfg0.win 5).blk t).view.emb (ix2 k j)) = V m c main_v20 (ix2 k j)
  refine congrArg (V m c main_v20) (funext fun a => Fin.ext ?_)
  match a with
  | ⟨0, _⟩ => show win0_5.index t (0 : Fin 2) * 64 + 1 * k.val = k.val; omega
  | ⟨1, _⟩ => show win0_5.index t (1 : Fin 2) * 64 + 1 * j.val = j.val; omega

/-! ## What a point computes is its rows of the two results -/

/-- The layer's output at `(r, q)` is node `r`'s layer row at `q`. -/
theorem outOf_at (c : Dev nD) (r : Fin 100000) (q : Fin 64) :
    outOf m c (ix2 r q)
      = layerRow (fun k => (m ((c : Thread nD τ).loc main_arg0)) (ix2 r k)) (fun k => Cert.ReferenceIdeal.ReadP.val_main_v13 (F := Ideal) (m ((c : Thread nD τ).loc main_arg0)) (m ((c : Thread nD τ).loc main_arg1)) (ix2 r k))
          (Cert.ReferenceIdeal.ReadP.val_main_v17 (F := Ideal) (m ((c : Thread nD τ).loc main_arg1)) (ix1 r)) (fun k j => Cert.ReferenceIdeal.ReadP.val_main_v23 (F := Ideal) (m ((c : Thread nD τ).loc main_arg2)) (ix2 k j))
          (fun k j => Cert.ReferenceIdeal.ReadP.val_main_v28 (F := Ideal) (m ((c : Thread nD τ).loc main_arg4)) (ix2 k j)) (fun j => (m ((c : Thread nD τ).loc main_arg3)) (ix1 j)) q := rfl

/-- Block row `p` of the first payload at point `t` is row `5000 t + p` of the layer's output. -/
theorem layer_block (c : Dev nD) (t : Fin cfg0.N) (p : Fin 5000) (q : Fin 64) (r : Fin 100000) (hr : r.val = t.val * 5000 + p.val) :
    k0_pay1 (iblk m c 0 t) (iblk m c 1 t) (iblk m c 2 t) (iblk m c 3 t) (iblk m c 5 t) (iblk m c 4 t) (ix2 p q) = outOf m c (ix2 r q) := by
  rw [outOf_at]
  refine (Block.layer_at (iblk m c 0 t) (iblk m c 1 t) (iblk m c 2 t) (iblk m c 3 t) (iblk m c 5 t) (iblk m c 4 t) p q).trans ?_
  exact layerRow_congr (fun k => x_row m c t p k r hr) (fun k => agg_row m c t p k r hr) (deg_row m c t p r hr)
    (fun k j => wl_at m c t k j) (fun k j => wr_at m c t k j) (fun j => b_at m c t j) q

/-- The node row of the array under block index `y` of point `t`. -/
def rowOf (t : Fin cfg0.N) (y : S5000x64.Idx) : SNodes.Idx :=
  ix2 (⟨t.val * 5000 + (y 0).val, by have := point_lt t; have h0 : (y 0).val < 5000 := idx2_lt0 y; omega⟩ : Fin 100000) (⟨(y 1).val, idx2_lt1 y⟩ : Fin 64)

theorem hz2 : (![0, 0] : Fin 2 → Nat) = fun _ => 0 := funext fun a => by fin_cases a <;> rfl
theorem hz1 : (![0] : Fin 1 → Nat) = fun _ => 0 := funext fun a => by fin_cases a; rfl

/-- What the body leaves in the first result's buffer at point `t`: the point's rows of the layer's output. -/
theorem out6_eq (c : Dev nD) (t : Fin cfg0.N) :
    out0_6 (iblk m c 0 t) (iblk m c 1 t) (iblk m c 2 t) (iblk m c 3 t) (iblk m c 4 t) (iblk m c 5 t) = fun y => outOf m c (rowOf t y) := by
  unfold out0_6
  rw [View.canon_unit_zero hz2]
  simp only [View.ld_unit_zero (S := S5000x64) hz2, View.ld_unit_zero (S := S5000x1) hz2, View.ld_unit_zero (S := S64x64) hz2,
    View.ld_unit_zero (S := S64) hz1]
  funext y
  obtain ⟨p, q, rfl⟩ : ∃ (p : Fin 5000) (q : Fin 64), y = ix2 p q := ⟨y 0, y 1, eq_ix2 y⟩
  exact layer_block m c t p q _ rfl

/-- What the body leaves in the second result's buffer at point `t`: the point's rows of the log-softmax. -/
theorem out7_eq (c : Dev nD) (t : Fin cfg0.N) :
    out0_7 (iblk m c 0 t) (iblk m c 1 t) (iblk m c 2 t) (iblk m c 3 t) (iblk m c 4 t) (iblk m c 5 t) = fun y => zOf m c (rowOf t y) := by
  unfold out0_7
  rw [View.canon_unit_zero hz2]
  simp only [View.ld_unit_zero (S := S5000x64) hz2, View.ld_unit_zero (S := S5000x1) hz2, View.ld_unit_zero (S := S64x64) hz2,
    View.ld_unit_zero (S := S64) hz1]
  funext y
  obtain ⟨p, q, rfl⟩ : ∃ (p : Fin 5000) (q : Fin 64), y = ix2 p q := ⟨y 0, y 1, eq_ix2 y⟩
  refine (congrFun (Block.pay2_eq (iblk m c 0 t) (iblk m c 1 t) (iblk m c 2 t) (iblk m c 3 t) (iblk m c 5 t) (iblk m c 4 t)) (ix2 p q)).trans ?_
  refine (Block.lsm_at (k0_pay1 (iblk m c 0 t) (iblk m c 1 t) (iblk m c 2 t) (iblk m c 3 t) (iblk m c 5 t) (iblk m c 4 t)) p q).trans ?_
  exact logSoftmaxRow_congr (fun k => layer_block m c t p k _ rfl) q

/-! ## What a point writes back, and the cover -/

/-- An output window's block read at an index is its array at the index's place in the array, and an uncut window's `cut` is the identity: both for any array and any block. -/
theorem blk_read6 (t : Fin cfg0.N) (X : ((cfg0.win 6).blk t).view.ty.Contents (Elt Ideal)) (y : S5000x64.Idx) :
    ((cfg0.win 6).blk t).view.read (Elt Ideal) X y = X (((cfg0.win 6).blk t).view.emb y) := rfl
theorem blk_read7 (t : Fin cfg0.N) (X : ((cfg0.win 7).blk t).view.ty.Contents (Elt Ideal)) (y : S5000x64.Idx) :
    ((cfg0.win 7).blk t).view.read (Elt Ideal) X y = X (((cfg0.win 7).blk t).view.emb y) := rfl
theorem cut6 (t : Fin cfg0.N) (Y : Vec Ideal S5000x64 .f32) : (cfg0.win 6).cut (grid0.coords t) Y = Y := rfl
theorem cut7 (t : Fin cfg0.N) (Y : Vec Ideal S5000x64 .f32) : (cfg0.win 7).cut (grid0.coords t) Y = Y := rfl

/-- WHAT POINT `t` WRITES BACK to the first result is block `t` of the layer's output. -/
theorem flushed6_eq (c : Dev nD) (t : Fin cfg0.N) :
    (dats m 0 c).flushed 6 t = ((cfg0.win 6).blk t).view.read (Elt Ideal) (outOf m c) := by
  rw [Value.flushed6, out6_eq]
  obtain ⟨-, -, -, -, -, -, -, -, -, -, -, e0, e1, -⟩ := idx_facts t
  refine (cut6 t _).trans ?_
  funext j
  refine Eq.trans ?_ (blk_read6 t (outOf m c) j).symm
  refine (congrArg (outOf m c) (funext fun a => Fin.ext ?_) : outOf m c (rowOf t j) = outOf m c (((cfg0.win 6).blk t).view.emb j))
  match a with
  | ⟨0, _⟩ => show t.val * 5000 + (j 0).val = win0_6.index t (0 : Fin 2) * 5000 + 1 * (j 0).val; omega
  | ⟨1, _⟩ => show (j 1).val = win0_6.index t (1 : Fin 2) * 64 + 1 * (j 1).val; omega

/-- WHAT POINT `t` WRITES BACK to the second result is block `t` of the log-softmax. -/
theorem flushed7_eq (c : Dev nD) (t : Fin cfg0.N) :
    (dats m 0 c).flushed 7 t = ((cfg0.win 7).blk t).view.read (Elt Ideal) (zOf m c) := by
  rw [Value.flushed7, out7_eq]
  obtain ⟨-, -, -, -, -, -, -, -, -, -, -, -, -, e0, e1⟩ := idx_facts t
  refine (cut7 t _).trans ?_
  funext j
  refine Eq.trans ?_ (blk_read7 t (zOf m c) j).symm
  refine (congrArg (zOf m c) (funext fun a => Fin.ext ?_) : zOf m c (rowOf t j) = zOf m c (((cfg0.win 7).blk t).view.emb j))
  match a with
  | ⟨0, _⟩ => show t.val * 5000 + (j 0).val = win0_7.index t (0 : Fin 2) * 5000 + 1 * (j 0).val; omega
  | ⟨1, _⟩ => show (j 1).val = win0_7.index t (1 : Fin 2) * 64 + 1 * (j 1).val; omega

/-- The point whose block holds node `r`: `r / 5000`. -/
def pointOf (i : S100000x64.Idx) : Fin cfg0.N :=
  ⟨(i 0).val / 5000, by have h : (i 0).val < 100000 := (i 0).isLt; have hN : cfg0.N = 20 := N_0; omega⟩

theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  refine ⟨pointOf i, flush0_6 _, ?_⟩
  obtain ⟨-, -, -, -, -, -, -, -, -, -, -, e0, e1, -⟩ := idx_facts (pointOf i)
  have ev : (pointOf i).val = (i 0).val / 5000 := rfl
  show i ∈ ((View.whole main_v21_0).slice (win0_6.rect (pointOf i))).set
  rw [View.set_slice_whole, Rect.mem_set_unit]
  intro a
  match a with
  | ⟨0, _⟩ =>
    show win0_6.index (pointOf i) (0 : Fin 2) * 5000 ≤ (i 0).val ∧ (i 0).val < win0_6.index (pointOf i) (0 : Fin 2) * 5000 + 5000
    omega
  | ⟨1, _⟩ =>
    show win0_6.index (pointOf i) (1 : Fin 2) * 64 ≤ (i 1).val ∧ (i 1).val < win0_6.index (pointOf i) (1 : Fin 2) * 64 + 64
    omega

theorem cover7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  refine ⟨pointOf i, flush0_7 _, ?_⟩
  obtain ⟨-, -, -, -, -, -, -, -, -, -, -, -, -, e0, e1⟩ := idx_facts (pointOf i)
  have ev : (pointOf i).val = (i 0).val / 5000 := rfl
  show i ∈ ((View.whole main_v21_1).slice (win0_7.rect (pointOf i))).set
  rw [View.set_slice_whole, Rect.mem_set_unit]
  intro a
  match a with
  | ⟨0, _⟩ =>
    show win0_7.index (pointOf i) (0 : Fin 2) * 5000 ≤ (i 0).val ∧ (i 0).val < win0_7.index (pointOf i) (0 : Fin 2) * 5000 + 5000
    omega
  | ⟨1, _⟩ =>
    show win0_7.index (pointOf i) (1 : Fin 2) * 64 ≤ (i 1).val ∧ (i 1).val < win0_7.index (pointOf i) (1 : Fin 2) * 64 + 64
    omega

/-! ## The arrays after the run, and the run -/

theorem final6 (c : Dev nD) : (dats m 0 c).arrAt 6 cfg0.N = outOf m c :=
  (dats m 0 c).arrAt_eq_of_cover 6 (outOf m c) (fun t _ => flushed6_eq m c t) cover6

theorem final7 (c : Dev nD) : (dats m 0 c).arrAt 7 cfg0.N = zOf m c :=
  (dats m 0 c).arrAt_eq_of_cover 7 (zOf m c) (fun t _ => flushed7_eq m c t) cover7

/-- THE KERNEL'S RUN: every weakly fair execution ends with the first result at the layer's output of the launch
    contents, the second at its row-wise log-softmax, the arguments unchanged. -/
theorem run : θ_run defs (onTc (τ := τ) (main (F := Ideal))) ⟨m, fun _ => 0, ρ⟩ fun r => ∀ c : Dev nD,
      r.2.mem ((c : Thread nD τ).loc main_v21_0) = outOf m c
      ∧ r.2.mem ((c : Thread nD τ).loc main_v21_1) = zOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2⟩)
    (Value.run_blocks m ρ)

end Cert.KernelIdeal.Arr

end
-- ==== Proof.RefRead.lean ====
/-
  The reference's two results, read at an index. Its first result is, at `(r, j)`, the sum over the 64 input features
  of the neighbour mean of node `r` (the host's neighbour sum over its in-degree floored at one) times the first weight
  matrix's transpose, plus the bias, plus the same sum of node `r`'s own features times the second weight matrix's
  transpose: the layer row with the bias added between the two products, which is the layer row with the bias added
  last — the one algebraic step of the certificate, commutativity and associativity of the extended reals' addition.
  Its second result is the row-wise log-softmax of the first: the row maximum is the host's max-reduce over the second
  axis, read as a fold from `−∞` (taking the maximum with `−∞` once more changes nothing), broadcast back along the row;
  the row sum is the host's add-reduce from zero.
-/
import proofs.«174587_j54906861912525_1_alg».proof.Proof.RefReadPatched
import proofs.«174587_j54906861912525_1_alg».proof.Proof.SageSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.SageSpec

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal))

-- the first result and the host's reduce enter only through their read-at-an-index lemmas
attribute [local irreducible] val_main_v30 Host.reduce

/-! ## The first result -/

/-- The divisor of the neighbour mean at `(r, k)`: node `r`'s in-degree floored at one. -/
theorem divisor_at (r : Fin 100000) (k : Fin 64) :
    val_main_v21 (F := Ideal) x1 (ix2 r k) = max (val_main_v17 (F := Ideal) x1 (ix1 r)) oneW := by
  rw [val_main_v21_apply, val_main_v20_apply, val_main_v19_apply, val_main_v18_apply, val_main_cst_3_apply]
  have e : idx_main_v20 (idx_main_v21 (ix2 r k)) = ix1 r := funext fun a => Fin.ext (by match a with | ⟨0, _⟩ => rfl)
  rw [e]
  rfl

/-- THE FIRST RESULT is the layer's output of the node features, the host's neighbour sums and in-degrees, the
    transposed weights and the bias. -/
theorem out_eq :
    val_main_v30 (F := Ideal) x0 x1 x2 x3 x4
      = layerArr x0 (val_main_v13 (F := Ideal) x0 x1) (val_main_v17 (F := Ideal) x1) (val_main_v23 (F := Ideal) x2)
          (val_main_v28 (F := Ideal) x4) x3 := by
  funext i
  obtain ⟨r, j, rfl⟩ : ∃ (r : Fin 100000) (j : Fin 64), i = ix2 r j := ⟨i 0, i 1, eq_ix2 i⟩
  show _ = layerRow (fun k => x0 (ix2 r k)) (fun k => val_main_v13 (F := Ideal) x0 x1 (ix2 r k)) (val_main_v17 (F := Ideal) x1 (ix1 r))
    (fun k j' => val_main_v23 (F := Ideal) x2 (ix2 k j')) (fun k j' => val_main_v28 (F := Ideal) x4 (ix2 k j')) (fun j' => x3 (ix1 j')) j
  rw [← layerRowBiasFirst_eq]
  unfold layerRowBiasFirst meanEntry
  rw [val_main_v30_apply, val_main_v27_apply, val_main_v24_apply, val_main_v29_apply, val_main_v26_apply, val_main_v25_apply]
  refine congrArg₂ (· + ·) (congrArg₂ (· + ·) (Finset.sum_congr rfl fun k _ => ?_) ?_) (Finset.sum_congr rfl fun k _ => ?_)
  · have el : lidx_main_v24 (ix2 r j) k = ix2 r k := funext fun a => Fin.ext (by match a with | ⟨0, _⟩ => rfl | ⟨1, _⟩ => rfl)
    have er : ridx_main_v24 (ix2 r j) k = ix2 k j := funext fun a => Fin.ext (by match a with | ⟨0, _⟩ => rfl | ⟨1, _⟩ => rfl)
    rw [el, er, val_main_v22_apply, divisor_at]
    rfl
  · exact congrArg x3 (funext fun a => Fin.ext (by match a with | ⟨0, _⟩ => rfl))
  · have el : lidx_main_v29 (ix2 r j) k = ix2 r k := funext fun a => Fin.ext (by match a with | ⟨0, _⟩ => rfl | ⟨1, _⟩ => rfl)
    have er : ridx_main_v29 (ix2 r j) k = ix2 k j := funext fun a => Fin.ext (by match a with | ⟨0, _⟩ => rfl | ⟨1, _⟩ => rfl)
    rw [el, er]

/-! ## The second result -/

theorem reduces_rows : S100000x64.Reduces [1] S100000 := by decide

/-- The index of the first result over row `r` with column `k` inserted is `(r, k)`. -/
theorem lift_rows (r : Fin 100000) (k : Fin 64) : reduces_rows.lift (ix1 r) k = ix2 r k :=
  funext fun a => Fin.ext (by match a with | ⟨0, _⟩ => rfl | ⟨1, _⟩ => rfl)

/-- The host's max-reduce over the second axis of ANY 100000 × 64 array, at row `r`: the fold of `max` from `−∞` over the row. -/
theorem fold_rows (o : S100000x64.Idx → EReal) (r : Fin 100000) :
    Host.reduce (FloatOps.maximumf (F := Ideal) (φ := .f32)) o (val_main_call0_cst (F := Ideal)) reducesTo_S100000x64_S100000_d1 h_S_ (ix1 r)
      = rowMax (fun k => o (ix2 r k)) := by
  refine (Host.reduce_eq_fold_single (α := Ideal .f32) (FloatOps.maximumf (F := Ideal) (φ := .f32)) o (val_main_call0_cst (F := Ideal))
    reducesTo_S100000x64_S100000_d1 reduces_rows h_S_ (ix1 r)).trans ?_
  have e : (o ∘ reduces_rows.lift (ix1 r)) = fun k : Fin 64 => o (ix2 r k) :=
    funext fun k => congrArg o (lift_rows r k)
  rw [e, val_main_call0_cst_apply]
  rfl

/-- The row maximum the reference takes of its first result: the fold of `max` from `−∞` over the row. -/
theorem rowMax_at (r : Fin 100000) :
    val_main_call0_v2 (F := Ideal) x0 x1 x2 x3 x4 (ix1 r) = rowMax (fun k => val_main_v30 (F := Ideal) x0 x1 x2 x3 x4 (ix2 r k)) := by
  rw [val_main_call0_v2_apply, val_main_call0_v1_apply, val_main_call0_cst_0_apply]
  refine (max_negInfW _).trans ?_
  unfold val_main_call0_v0
  exact fold_rows (val_main_v30 (F := Ideal) x0 x1 x2 x3 x4) r

/-- The row maximum broadcast back along the row. -/
theorem bmax_at (r : Fin 100000) (k : Fin 64) :
    val_main_call0_v4 (F := Ideal) x0 x1 x2 x3 x4 (ix2 r k) = rowMax (fun k => val_main_v30 (F := Ideal) x0 x1 x2 x3 x4 (ix2 r k)) := by
  rw [val_main_call0_v4_apply, val_main_call0_v3_apply]
  have e : idx_main_call0_v3 (idx_main_call0_v4 (ix2 r k)) = ix1 r := funext fun a => Fin.ext (by match a with | ⟨0, _⟩ => rfl)
  rw [e, rowMax_at]

/-- The row shifted by its maximum. -/
theorem shifted_at (r : Fin 100000) (k : Fin 64) :
    val_main_call0_v5 (F := Ideal) x0 x1 x2 x3 x4 (ix2 r k)
      = val_main_v30 (F := Ideal) x0 x1 x2 x3 x4 (ix2 r k) - rowMax (fun k => val_main_v30 (F := Ideal) x0 x1 x2 x3 x4 (ix2 r k)) := by
  rw [val_main_call0_v5_apply, bmax_at]
  rfl

/-- THE SECOND RESULT is the row-wise log-softmax of the first. -/
theorem z_eq : val_main_v31 (F := Ideal) x0 x1 x2 x3 x4 = logSoftmaxArr (val_main_v30 (F := Ideal) x0 x1 x2 x3 x4) := by
  funext i
  obtain ⟨r, j, rfl⟩ : ∃ (r : Fin 100000) (j : Fin 64), i = ix2 r j := ⟨i 0, i 1, eq_ix2 i⟩
  show _ = logSoftmaxRow (fun k => val_main_v30 (F := Ideal) x0 x1 x2 x3 x4 (ix2 r k)) j
  unfold logSoftmaxRow
  rw [val_main_v31_apply, shifted_at, val_main_call0_v10_apply, val_main_call0_v9_apply, val_main_call0_v8_apply, val_main_call0_v7_apply,
    val_main_call0_cst_1_apply]
  simp only [Ideal.subf_def, Ideal.hostUnary_log_def, Ideal.ofBits_def, Ideal.ofBits_zero_f32, zero_add]
  refine congrArg (fun s => (val_main_v30 (F := Ideal) x0 x1 x2 x3 x4 (ix2 r j) - rowMax fun k => val_main_v30 (F := Ideal) x0 x1 x2 x3 x4 (ix2 r k)) - Ideal.log s)
    (Finset.sum_congr rfl fun k _ => ?_)
  have e : idx_main_call0_v7 (idx_main_call0_v8 (idx_main_call0_v10 (ix2 r j))) k = ix2 r k :=
    funext fun a => Fin.ext (by match a with | ⟨0, _⟩ => rfl | ⟨1, _⟩ => rfl)
  rw [e, val_main_call0_v6_apply, shifted_at]
  rfl

end Cert.ReferenceIdeal.RefValue

end
-- ==== Proof.lean ====
/-
  A mean-aggregating graph layer followed by a row-wise log-softmax, over 100000 nodes with 64 features and 1600000
  edges: a kernel that does the dense per-node part (gridded over 20 blocks of 5000 nodes) against the plain reference.

  Both programs first compute on the host, by the SAME operations, the neighbour sums (gather the source nodes' features,
  scatter-add onto the destination nodes) and the in-degrees (scatter-add ones), and transpose the two weight matrices.
  From there, for node `r` and output feature `j`,

      out r j = Σ_k (agg r k / max (deg r) 1) · Wlᵀ k j + Σ_k x r k · Wrᵀ k j + b j,
      z r j   = (out r j − M r) − log Σ_k exp (out r k − M r),   M r = max_k out r k (from −∞).

  The kernel narrows its matrix products' operands to bf16 (the identity on the extended reals), accumulates each
  product into zero (a plain sum), adds the two products and then the bias, and takes the row maximum and row sum as
  block reductions; the reference adds the bias between the two products and reduces on the host. The only law between
  the two is that the three summands of `out` may be added in either order — commutativity and associativity of the
  extended reals' addition, which needs no finiteness, so the precondition is never opened.

  The modules: SageSpec (the row functions and that law), KernelBlock (a kernel block at an index), HostStages (the arrays
  the region finds are the reference's host stages), KernelArray (blocks to arrays: the 20 blocks cover the nodes), RefRead
  (the reference at an index). The frames are the generated ones; the reference's is its run with the results dropped.
-/
import proofs.«174587_j54906861912525_1_alg».proof.Defs
import proofs.«174587_j54906861912525_1_alg».proof.Proof.Gen.Kernel
import proofs.«174587_j54906861912525_1_alg».proof.Proof.Gen.Kernel.Skeleton
import proofs.«174587_j54906861912525_1_alg».proof.Proof.Gen.Kernel.Launch
import proofs.«174587_j54906861912525_1_alg».proof.Proof.Gen.Kernel.Points
import proofs.«174587_j54906861912525_1_alg».proof.Proof.Gen.Kernel.Frame
import proofs.«174587_j54906861912525_1_alg».proof.Proof.Gen.KernelIdeal
import proofs.«174587_j54906861912525_1_alg».proof.Proof.Gen.KernelIdeal.Skeleton
import proofs.«174587_j54906861912525_1_alg».proof.Proof.Gen.KernelIdeal.Launch
import proofs.«174587_j54906861912525_1_alg».proof.Proof.Gen.KernelIdeal.Points
import proofs.«174587_j54906861912525_1_alg».proof.Proof.Gen.KernelIdeal.Frame
import proofs.«174587_j54906861912525_1_alg».proof.Proof.Gen.ReferenceIdeal
import proofs.«174587_j54906861912525_1_alg».proof.Proof.Gen.Pre_finite_inputs
import proofs.«174587_j54906861912525_1_alg».proof.Proof.Gen.KernelIdeal.Value
import proofs.«174587_j54906861912525_1_alg».proof.Proof.RefRunPatched
import proofs.«174587_j54906861912525_1_alg».proof.Proof.RefReadPatched
import proofs.«174587_j54906861912525_1_alg».proof.Proof.KernelArray
import proofs.«174587_j54906861912525_1_alg».proof.Proof.RefRead
import Idealize.ShloMosaic.Adequacy
import Idealize.ShloMosaic.Init

noncomputable section

namespace Cert.Proof

open Idealize.ShloMosaic Idealize.ShloMosaic.TcCoe Idealize.SL.Sem

-- both results are compared as functions of the reference's stages (neighbour sums, in-degrees, transposed weights, first result): how a stage is computed is never used
attribute [local irreducible] Cert.ReferenceIdeal.ReadP.val_main_v13 Cert.ReferenceIdeal.ReadP.val_main_v17 Cert.ReferenceIdeal.ReadP.val_main_v23
  Cert.ReferenceIdeal.ReadP.val_main_v28 Cert.ReferenceIdeal.ReadP.val_main_v30 Cert.ReferenceIdeal.ReadP.val_main_v31

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- At the ideal values, from memories agreeing on the arguments, both programs end with the layer's output and its
    row-wise log-softmax of the launch contents: the kernel by its blocks covering the nodes, the reference by its
    stages read at an index and the reordering of the three summands. -/
theorem algebraic : Cert.algebraic_KernelIdeal_ReferenceIdeal := by
  intro m ρ m' ρ' _ hagree
  refine ⟨fun c => Cert.KernelIdeal.Arr.outOf m c, fun c => Cert.KernelIdeal.Arr.zOf m c, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.ReadP.val_main_v30_eq, Cert.ReferenceIdeal.RefValue.out_eq,
      (hagree c).1, (hagree c).2.1, (hagree c).2.2.1, (hagree c).2.2.2.1, (hagree c).2.2.2.2]
    rfl
  · rw [Cert.ReferenceIdeal.ReadP.val_main_v31_eq, Cert.ReferenceIdeal.RefValue.z_eq, Cert.ReferenceIdeal.RefValue.out_eq,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
